-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S800000x16 : Shape := ⟨2, ![800000, 16]⟩
abbrev S800000 : Shape := ⟨1, ![800000]⟩
abbrev S16x128 : Shape := ⟨2, ![16, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x128 : S_.BroadcastsInDim S16x128 (![] : Fin 0 → Fin S16x128.rank)
  reducesTo_S16x128_S_d0_1 : S16x128.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg8 : FVec F S256 .f32) (main_arg9 : FVec F S256x1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S256 .f32) (main_arg9 : FVec F S256x1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S800000x128 .f32) (main_arg1 : FVec F S800000x16 .f32) (main_arg2 : IVec S800000 32) (main_arg3 : FVec F S16x128 .f32) (main_arg4 : FVec F S128x256 .f32) (main_arg5 : FVec F S256x256 .f32) (main_arg6 : FVec F S256 .f32) (main_arg7 : FVec F S256x256 .f32) (main_arg8 : FVec F S256 .f32) (main_arg9 : FVec F S256x1 .f32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S800000x128 : Shape := ⟨2, ![800000, 128]⟩
abbrev S800000x16 : Shape := ⟨2, ![800000, 16]⟩
abbrev S800000 : Shape := ⟨1, ![800000]⟩
abbrev S16x128 : Shape := ⟨2, ![16, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S8000x128 : Shape := ⟨2, ![8000, 128]⟩
abbrev S8000x16 : Shape := ⟨2, ![8000, 16]⟩
abbrev S_ : Shape := ⟨0, ![]⟩
abbrev S50000x128 : Shape := ⟨2, ![50000, 128]⟩
abbrev S800000x1 : Shape := ⟨2, ![800000, 1]⟩
abbrev S1x256 : Shape := ⟨2, ![1, 256]⟩
abbrev S50000x1 : Shape := ⟨2, ![50000, 1]⟩
abbrev S2000x128 : Shape := ⟨2, ![2000, 128]⟩
abbrev S2000x1 : Shape := ⟨2, ![2000, 1]⟩
abbrev S2000x256 : Shape := ⟨2, ![2000, 256]⟩

abbrev nBuf : Space → Nat
  | .hbm => 18
  | .vmem => 17
  | .smem => 0
  | _ => 0

abbrev bufTy : (tb : Table) → Fin (tcTables nBuf tb) → BufTy
  | .hbm, ⟨0, _⟩ => ⟨S800000x128, .f32⟩
  | .hbm, ⟨1, _⟩ => ⟨S800000x16, .f32⟩
  | .hbm, ⟨2, _⟩ => ⟨S800000, .i32⟩
  | .hbm, ⟨3, _⟩ => ⟨S16x128, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S800000x128, .f32⟩
  | .hbm, ⟨11, _⟩ => ⟨S_, .f32⟩
  | .hbm, ⟨12, _⟩ => ⟨S50000x128, .f32⟩
  | .hbm, ⟨13, _⟩ => ⟨S800000x1, .i32⟩
  | .hbm, ⟨14, _⟩ => ⟨S50000x128, .f32⟩
  | .hbm, ⟨15, _⟩ => ⟨S1x256, .f32⟩
  | .hbm, ⟨16, _⟩ => ⟨S1x256, .f32⟩
  | .hbm, ⟨17, _⟩ => ⟨S50000x1, .f32⟩
  | .local _ .vmem, ⟨0, _⟩ => ⟨S8000x128, .f32⟩
  | .local _ .vmem, ⟨1, _⟩ => ⟨S8000x128, .f32⟩
  | .local _ .vmem, ⟨2, _⟩ => ⟨S8000x16, .f32⟩
  | .local _ .vmem, ⟨3, _⟩ => ⟨S8000x16, .f32⟩
  | .local _ .vmem, ⟨4, _⟩ => ⟨S16x128, .f32⟩
  | .local _ .vmem, ⟨5, _⟩ => ⟨S8000x128, .f32⟩
  | .local _ .vmem, ⟨6, _⟩ => ⟨S8000x128, .f32⟩
  | .local _ .vmem, ⟨7, _⟩ => ⟨S2000x128, .f32⟩
  | .local _ .vmem, ⟨8, _⟩ => ⟨S2000x128, .f32⟩
  | .local _ .vmem, ⟨9, _⟩ => ⟨S128x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x1, .f32⟩
  | .local _ .vmem, ⟨15, _⟩ => ⟨S2000x1, .f32⟩
  | .local _ .vmem, ⟨16, _⟩ => ⟨S2000x1, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S8000x128_S8000x128_0_0 : ∀ a, (![0, 0] : Fin 2 → Nat) a + S8000x128.size a ≤ S8000x128.size a
  h_S8000x128 : 0 < S8000x128.numel
  bcast_S_S50000x128 : S_.BroadcastsInDim S50000x128 (![] : Fin 0 → Fin S50000x128.rank)
  bcast_S800000_S800000x1_0 : S800000.BroadcastsInDim S800000x1 (![0] : Fin 1 → Fin S800000x1.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x1_S256x1_0_0 : ∀ a, (![0, 0] : Fin 2 → Nat) a + S256x1.size a ≤ S256x1.size a
  h_S256x1 : 0 < S256x1.numel
  inb_S2000x1_S2000x1_0_0 : ∀ a, (![0, 0] : Fin 2 → Nat) a + S2000x1.size a ≤ S2000x1.size a
  h_S2000x1 : 0 < S2000x1.numel
  dot_S8000x16_S16x128_S8000x128_1_0_0_1_n_n_wf : DotDims.WF S8000x16 S16x128 S8000x128 [1] [0] [0] [1] [] []
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S800000x16.size a
  hwx0_1 : ∀ i : grid0.Coords, EltTy.bits .f32 = 32 ∨ (Rect.block (s := S800000x16) S8000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S800000x128.size a
  hwx0_3 : ∀ i : grid0.Coords, EltTy.bits .f32 = 32 ∨ (Rect.block (s := S800000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x1.size a ≤ S256x1.size a
  hwx1_6 : ∀ i : grid1.Coords, EltTy.bits .f32 = 32 ∨ (Rect.block (s := S256x1) S256x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S50000x1.size a
  hwx1_7 : ∀ i : grid1.Coords, EltTy.bits .f32 = 32 ∨ (Rect.block (s := S50000x1) S2000x1.size (cc1_transform_7 i) (hinb1_7 i)).WholeWords (EltTy.packing .f32)

variable [Facts₀]

def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S256x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S2000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S800000x128 : Shape := ⟨2, ![800000, 128]⟩
abbrev S800000x16 : Shape := ⟨2, ![800000, 16]⟩
abbrev S800000 : Shape := ⟨1, ![800000]⟩
abbrev S16x128 : Shape := ⟨2, ![16, 128]⟩
abbrev S128x256 : Shape := ⟨2, ![128, 256]⟩
abbrev S256x256 : Shape := ⟨2, ![256, 256]⟩
abbrev S256 : Shape := ⟨1, ![256]⟩
abbrev S256x1 : Shape := ⟨2, ![256, 1]⟩
abbrev S_ : Shape := ⟨0, ![]⟩
abbrev S50000x128 : Shape := ⟨2, ![50000, 128]⟩
abbrev S800000x1 : Shape := ⟨2, ![800000, 1]⟩
abbrev S50000x256 : Shape := ⟨2, ![50000, 256]⟩
abbrev S1x256 : Shape := ⟨2, ![1, 256]⟩
abbrev S50000x1 : Shape := ⟨2, ![50000, 1]⟩

abbrev nBuf : Space → Nat
  | .hbm => 44
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S800000x16, .f32⟩
  | .hbm, ⟨2, _⟩ => ⟨S800000, .i32⟩
  | .hbm, ⟨3, _⟩ => ⟨S16x128, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S800000x128, .f32⟩
  | .hbm, ⟨11, _⟩ => ⟨S800000x128, .f32⟩
  | .hbm, ⟨12, _⟩ => ⟨S_, .f32⟩
  | .hbm, ⟨13, _⟩ => ⟨S50000x128, .f32⟩
  | .hbm, ⟨14, _⟩ => ⟨S800000x1, .i32⟩
  | .hbm, ⟨15, _⟩ => ⟨S50000x128, .f32⟩
  | .hbm, ⟨16, _⟩ => ⟨S50000x256, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S50000x256, .f32⟩
  | .hbm, ⟨23, _⟩ => ⟨S_, .f32⟩
  | .hbm, ⟨24, _⟩ => ⟨S50000x256, .f32⟩
  | .hbm, ⟨25, _⟩ => ⟨S50000x256, .f32⟩
  | .hbm, ⟨26, _⟩ => ⟨S_, .f32⟩
  | .hbm, ⟨27, _⟩ => ⟨S50000x256, .f32⟩
  | .hbm, ⟨28, _⟩ => ⟨S50000x256, .f32⟩
  | .hbm, ⟨29, _⟩ => ⟨S50000x256, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S_, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S50000x1, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v15 : Ref sig .tc := ⟨.hbm, 42, rfl⟩
abbrev main_v16 : Ref sig .tc := ⟨.hbm, 43, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  dot_S800000x16_S16x128_S800000x128_1_0_0_1_n_n_wf : DotDims.WF S800000x16 S16x128 S800000x128 [1] [0] [0] [1] [] []
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.ScalePayload.lean ====
/-
  The first kernel's stored value at an entry.

  The body loads a block of `messages` rows, the same rows of `rbf` and the whole `W_rbf`, forms the product
  `rbf · W_rbf` into a zero accumulator (the changes of float format are the identity on extended reals) and stores
  `messages * (rbf · W_rbf)`. At entry `(p, q)` of the block that is `messages[p, q] · ∑ k, rbf[p, k] · W_rbf[k, q]`.
-/
import proofs.«150192_j944892805680_1_alg».proof.Proof.Gen.KernelIdeal.Skeleton
import proofs.«150192_j944892805680_1_alg».proof.Proof.LibDot
import Idealize.ShloMosaic.Lib.ValueIdx

noncomputable section

open scoped BigOperators

namespace Cert.KernelIdeal.Scale

open Cert.KernelIdeal Cert.KernelIdeal.Gen Idealize.ShloMosaic Idealize.ShloMosaic.ValueIdx

/-- Entry `(p, q)` of the scaled block: the message entry times the row of `rbf` against the column of `W_rbf`. -/
theorem payload_apply (rbf : Vec Ideal S8000x16 .f32) (w : Vec Ideal S16x128 .f32) (msg : Vec Ideal S8000x128 .f32)
    (p : Fin 8000) (q : Fin 128) :
    k0_pay1 (F := Ideal) rbf w msg (ix2 p q) = msg (ix2 p q) * ∑ k : Fin 16, rbf (ix2 p k) * w (ix2 k q) := by
  unfold k0_pay1
  rw [mulf_apply]
  refine congrArg (fun z => msg (ix2 p q) * z) ?_
  exact Cert.LibDot.matmul_zero_apply dot_S8000x16_S16x128_S8000x128_1_0_0_1_n_n rfl rfl rfl rfl rfl rfl none _ _ p q

end Cert.KernelIdeal.Scale

end
-- ==== Proof.Spec.lean ====
/-
  What both programs compute, over plain coordinates.

  Edge `r` carries the message row scaled entry by entry with the row of `rbf · W_rbf`. After the scaled rows are summed
  per receiving particle, each particle's row `s` of 128 numbers goes through the same small network: the
  up-projection `u = s · W_up`, two hidden layers `x ↦ swish (x · W + b)` with `swish z = z · logistic z`, and the final
  projection onto one number. All arithmetic is that of the extended reals; the sums are finite sums in the order of
  the index type, which both programs share.
-/
import Idealize.ShloMosaic.PureOps.Ideal
import Idealize.ShloMosaic.Lib.ValueIdx

noncomputable section

open scoped BigOperators

namespace Cert.Spec

open Idealize.ShloMosaic Idealize.ShloMosaic.ValueIdx

/-- `swish z = z · logistic z`, with `logistic z = 1 / (1 + exp (-z))`. -/
def swish (z : EReal) : EReal := z * Ideal.logistic z

/-- One entry of a scaled message row: the message entry times the `rbf` row against a column of `W_rbf`. -/
def scaled (msg : EReal) (rbf : Fin 16 → EReal) (wcol : Fin 16 → EReal) : EReal :=
  msg * ∑ k : Fin 16, rbf k * wcol k

/-- The up-projection of a summed row. -/
def up (s : Fin 128 → EReal) (wup : Fin 128 → Fin 256 → EReal) (a : Fin 256) : EReal :=
  ∑ e : Fin 128, s e * wup e a

/-- One hidden layer: `swish (x · W + b)`. -/
def layer (x : Fin 256 → EReal) (w : Fin 256 → Fin 256 → EReal) (bias : Fin 256 → EReal) (b : Fin 256) : EReal :=
  swish (∑ a : Fin 256, x a * w a b + bias b)

/-- The network's output for one particle, from its summed row. -/
def mlpRow (s : Fin 128 → EReal) (wup : Fin 128 → Fin 256 → EReal) (wd1 : Fin 256 → Fin 256 → EReal)
    (b1 : Fin 256 → EReal) (wd2 : Fin 256 → Fin 256 → EReal) (b2 : Fin 256 → EReal) (wf : Fin 256 → EReal) : EReal :=
  ∑ c : Fin 256, layer (layer (up s wup) wd1 b1) wd2 b2 c * wf c

/-- An `a × b` array of extended reals. -/
abbrev Mat (a b : Nat) : Type := (⟨2, ![a, b]⟩ : Shape).Idx → EReal

/-- The scaled messages as one function of the three whole arrays. -/
def scaledArr (msg : Mat 800000 128) (rbf : Mat 800000 16) (w : Mat 16 128) : Mat 800000 128 :=
  fun i => scaled (msg i) (fun k => rbf (ix2 (i 0) k)) (fun k => w (ix2 k (i 1)))

/-- The network applied to every row of a summed array, the biases given as [1, 256] rows. -/
def mlpArr (s : Mat 50000 128) (wup : Mat 128 256) (wd1 : Mat 256 256) (b1 : Mat 1 256) (wd2 : Mat 256 256)
    (b2 : Mat 1 256) (wf : Mat 256 1) : Mat 50000 1 :=
  fun i => mlpRow (fun e => s (ix2 (i 0) e)) (fun e a => wup (ix2 e a)) (fun a b => wd1 (ix2 a b))
    (fun b => b1 (ix2 (0 : Fin 1) b)) (fun b c => wd2 (ix2 b c)) (fun c => b2 (ix2 (0 : Fin 1) c))
    (fun c => wf (ix2 c (i 1)))

end Cert.Spec

end
-- ==== Proof.ScaleRegion.lean ====
/-
  The array the first kernel leaves.

  Grid point `t` of the first kernel reads rows `8000 t … 8000 t + 7999` of `messages` and of `rbf` and the whole
  `W_rbf`, and writes back the same rows of the result. So the result array ends, at every `(r, q)`, at
  `messages[r, q] · ∑ k, rbf[r, k] · W_rbf[k, q]`: the 100 blocks of 8000 rows cover the 800000 rows.
-/
import proofs.«150192_j944892805680_1_alg».proof.Proof.Gen.KernelIdeal.Frame
import proofs.«150192_j944892805680_1_alg».proof.Proof.ScalePayload
import proofs.«150192_j944892805680_1_alg».proof.Proof.Spec
import Idealize.ShloMosaic.Lib.Pipeline.Value

set_option maxRecDepth 16384

noncomputable section

open scoped BigOperators

namespace Cert.KernelIdeal.Scale

open Cert.KernelIdeal Cert.KernelIdeal.Gen Idealize.ShloMosaic Idealize.ShloMosaic.TcCoe Idealize.ShloMosaic.ValueIdx Idealize.SL.Sem
open Idealize.ShloMosaic.Pipeline (Dat)
open Cert.Spec (scaledArr)

variable (V : (c : Dev nD) → (b : Ref sig .tc) → Buf (Elt Ideal) ((c : Thread nD τ).loc b))

theorem hz : (![0, 0] : Fin 2 → Nat) = fun _ => 0 := funext fun a => by fin_cases a <;> rfl

/-- The stored block at `(p, q)` is the scaled array at `i` when the loaded blocks hold, in row `p` and column `q`, what
    the arrays hold in `i`'s row and column. -/
theorem point_eq (msgB : Vec Ideal S8000x128 .f32) (rbfB : Vec Ideal S8000x16 .f32) (wB : Vec Ideal S16x128 .f32)
    (msg : S800000x128.Idx → EReal) (rbf : S800000x16.Idx → EReal) (w : S16x128.Idx → EReal)
    (p : Fin 8000) (q : Fin 128) (i : S800000x128.Idx)
    (hmsg : msgB (ix2 p q) = msg i)
    (hrbf : ∀ k : Fin 16, rbfB (ix2 p k) = rbf (ix2 (i 0) k))
    (hw : ∀ k : Fin 16, wB (ix2 k q) = w (ix2 k (i 1))) :
    k0_pay1 (F := Ideal) rbfB wB msgB (ix2 p q) = scaledArr msg rbf w i := by
  rw [payload_apply, hmsg]
  unfold Cert.Spec.scaledArr Cert.Spec.scaled
  simp only [hrbf, hw]

/-- The printed index maps over the grid: windows 0, 1 and 3 are on row block `t`, column block 0; window 2 stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled array of the arrays as the region finds them. -/
theorem flushed_eq (c : Dev nD) (t : Fin cfg0.N) :
    (dat0 V c).flushed 3 t = ((cfg0.win 3).blk t).view.read (Elt Ideal)
      (scaledArr (V c main_arg0) (V c main_arg1) (V c main_arg3)) := by
  show (cfg0.win 3).cut (grid0.coords t) ((dat0 V c).after 3 t) = _
  rw [after0_3]
  unfold out0_3
  rw [View.canon_unit_zero hz]
  simp only [View.ld_unit_zero (S := S8000x16) hz, View.ld_unit_zero (S := S16x128) hz, View.ld_unit_zero (S := S8000x128) hz]
  obtain ⟨e00, e01, e10, e11, e20, e21, e30, e31⟩ := idx_facts t
  funext j
  obtain ⟨p, q, rfl⟩ : ∃ (p : Fin 8000) (q : Fin 128), j = ix2 p q := ⟨j 0, j 1, eq_ix2 j⟩
  show k0_pay1 (F := Ideal) (iblk0 V c 1 t) (iblk0 V c 2 t) (iblk0 V c 0 t) (ix2 p q)
    = scaledArr (V c main_arg0) (V c main_arg1) (V c main_arg3) (((cfg0.win 3).blk t).view.emb (ix2 p q))
  refine point_eq _ _ _ _ _ _ p q _ ?_ (fun k => ?_) (fun k => ?_)
  · show V c main_arg0 (((cfg0.win 0).blk t).view.emb (ix2 p q)) = V c main_arg0 (((cfg0.win 3).blk t).view.emb (ix2 p q))
    refine congrArg _ (funext fun a => Fin.ext ?_)
    match a with
    | ⟨0, _⟩ => show win0_0.index t (0 : Fin 2) * 8000 + 1 * p.val = win0_3.index t (0 : Fin 2) * 8000 + 1 * p.val; omega
    | ⟨1, _⟩ => show win0_0.index t (1 : Fin 2) * 128 + 1 * q.val = win0_3.index t (1 : Fin 2) * 128 + 1 * q.val; omega
  · show V c main_arg1 (((cfg0.win 1).blk t).view.emb (ix2 p k)) = V c main_arg1 (ix2 ((((cfg0.win 3).blk t).view.emb (ix2 p q)) 0) k)
    refine congrArg _ (funext fun a => Fin.ext ?_)
    match a with
    | ⟨0, _⟩ => show win0_1.index t (0 : Fin 2) * 8000 + 1 * p.val = win0_3.index t (0 : Fin 2) * 8000 + 1 * p.val; omega
    | ⟨1, _⟩ => show win0_1.index t (1 : Fin 2) * 16 + 1 * k.val = k.val; omega
  · show V c main_arg3 (((cfg0.win 2).blk t).view.emb (ix2 k q)) = V c main_arg3 (ix2 k ((((cfg0.win 3).blk t).view.emb (ix2 p q)) 1))
    refine congrArg _ (funext fun a => Fin.ext ?_)
    match a with
    | ⟨0, _⟩ => show win0_2.index t (0 : Fin 2) * 16 + 1 * k.val = k.val; omega
    | ⟨1, _⟩ => show win0_2.index t (1 : Fin 2) * 128 + 1 * q.val = win0_3.index t (1 : Fin 2) * 128 + 1 * q.val; omega

/-- An index of the result array is in point `t`'s block iff each coordinate is in the block's range on its axis. -/
theorem mem_blk (t : Fin cfg0.N) (i : S800000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v0).slice (win0_3.rect t)).set ↔ _
  rw [View.set_slice_whole, Rect.mem_set_unit]
  exact Iff.rfl

/-- Row `r` lies in the block of point `r / 8000`. -/
theorem cover (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have hN : cfg0.N = 100 := N_0
  refine ⟨⟨(i 0).val / 8000, by rw [hN]; omega⟩, flush0_3 _, ?_⟩
  rw [mem_blk]
  obtain ⟨-, -, -, -, -, -, e30, e31⟩ := idx_facts ⟨(i 0).val / 8000, by rw [hN]; omega⟩
  intro a
  match a with
  | ⟨0, _⟩ =>
    show win0_3.index _ (0 : Fin 2) * 8000 ≤ (i 0).val ∧ (i 0).val < win0_3.index _ (0 : Fin 2) * 8000 + 8000
    rw [e30]; show (i 0).val / 8000 * 8000 ≤ (i 0).val ∧ (i 0).val < (i 0).val / 8000 * 8000 + 8000; omega
  | ⟨1, _⟩ =>
    show win0_3.index _ (1 : Fin 2) * 128 ≤ (i 1).val ∧ (i 1).val < win0_3.index _ (1 : Fin 2) * 128 + 128
    rw [e31]; omega

/-- The result array after the region: the scaled array of the arrays as the region finds them. -/
theorem final (c : Dev nD) :
    (dat0 V c).arrAt 3 cfg0.N = scaledArr (V c main_arg0) (V c main_arg1) (V c main_arg3) :=
  (dat0 V c).arrAt_eq_of_cover 3 _ (fun t _ => flushed_eq V c t) cover

end Cert.KernelIdeal.Scale

end
-- ==== Proof.MlpPayload.lean ====
/-
  The second kernel's stored value at an entry.

  The body loads a block of 2000 summed rows and the whole weight and bias arrays, and stores a [2000, 1] column: row
  `p` of it is the network of `Cert.Spec.mlpRow` applied to row `p` of the block. Each matrix product runs into a zero
  accumulator, so at an entry it is the plain sum over the contracted coordinate; the biases arrive as [1, 256] rows
  broadcast over the 2000 rows; the changes of float format and the casts to the same shape are the identity.
-/
import proofs.«150192_j944892805680_1_alg».proof.Proof.Gen.KernelIdeal.Skeleton
import proofs.«150192_j944892805680_1_alg».proof.Proof.LibDot
import proofs.«150192_j944892805680_1_alg».proof.Proof.Spec
import Idealize.ShloMosaic.Lib.ValueIdx
import Idealize.ShloMosaic.Lib.ValueLayout
import Idealize.ShloMosaic.Lib.Pipeline.Value

noncomputable section

open scoped BigOperators

namespace Cert.KernelIdeal.Mlp

open Cert.KernelIdeal Cert.KernelIdeal.Gen Idealize.ShloMosaic Idealize.ShloMosaic.ValueIdx

/-- Row `p` of the stored column is the network applied to row `p` of the loaded block. -/
theorem payload_apply (x : Vec Ideal S2000x128 .f32) (wup : Vec Ideal S128x256 .f32) (wd1 : Vec Ideal S256x256 .f32)
    (b1 : Vec Ideal S1x256 .f32) (wd2 : Vec Ideal S256x256 .f32) (b2 : Vec Ideal S1x256 .f32) (wf : Vec Ideal S256x1 .f32)
    (p : Fin 2000) (u : Fin 1) :
    k1_pay1 (F := Ideal) x wup wd1 b1 wd2 b2 wf (ix2 p u)
      = Cert.Spec.mlpRow (fun e => x (ix2 p e)) (fun e a => wup (ix2 e a)) (fun a b => wd1 (ix2 a b))
          (fun b => b1 (ix2 (0 : Fin 1) b)) (fun b c => wd2 (ix2 b c)) (fun c => b2 (ix2 (0 : Fin 1) c))
          (fun c => wf (ix2 c u)) := by
  unfold k1_pay1 Cert.Spec.mlpRow Cert.Spec.layer Cert.Spec.up Cert.Spec.swish
  simp only [Cert.LibDot.matmul_zero_apply dot_S2000x256_S256x1_S2000x1_1_0_0_1_n_n rfl rfl rfl rfl rfl rfl none,
    Cert.LibDot.matmul_zero_apply dot_S2000x256_S256x256_S2000x256_1_0_0_1_n_n rfl rfl rfl rfl rfl rfl none,
    Cert.LibDot.matmul_zero_apply dot_S2000x128_S128x256_S2000x256_1_0_0_1_n_n rfl rfl rfl rfl rfl rfl none,
    truncf_apply, mulf_apply, addf_apply, shapeCast_self, broadcastTo_1b_ab_apply, logistic, Ideal.logistic_def]

end Cert.KernelIdeal.Mlp

end
-- ==== Proof.MlpRegion.lean ====
/-
  The array the second kernel leaves.

  Grid point `t` of the second kernel reads rows `2000 t … 2000 t + 1999` of the summed array and the whole weight and
  bias arrays, and writes back the same rows of the [50000, 1] result. So the result array ends, in every row `n`, at
  the network of `Cert.Spec.mlpRow` applied to row `n` of the summed array: the 25 blocks of 2000 rows cover the 50000
  rows.
-/
import proofs.«150192_j944892805680_1_alg».proof.Proof.Gen.KernelIdeal.Frame
import proofs.«150192_j944892805680_1_alg».proof.Proof.MlpPayload
import proofs.«150192_j944892805680_1_alg».proof.Proof.Spec
import Idealize.ShloMosaic.Lib.Pipeline.Value

set_option maxRecDepth 16384

noncomputable section

open scoped BigOperators

namespace Cert.KernelIdeal.Mlp

open Cert.KernelIdeal Cert.KernelIdeal.Gen Idealize.ShloMosaic Idealize.ShloMosaic.TcCoe Idealize.ShloMosaic.ValueIdx Idealize.SL.Sem
open Idealize.ShloMosaic.Pipeline (Dat)
open Cert.Spec (mlpArr)

variable (V : (c : Dev nD) → (b : Ref sig .tc) → Buf (Elt Ideal) ((c : Thread nD τ).loc b))

theorem hz : (![0, 0] : Fin 2 → Nat) = fun _ => 0 := funext fun a => by fin_cases a <;> rfl

/-- The stored column in row `p` is the network's array at `i` when the loaded summed block holds in row `p` what the
    summed array holds in `i`'s row, the weight and bias blocks are the whole arrays, and `i`'s column is `u`. -/
theorem point_eq (sB : Vec Ideal S2000x128 .f32) (wup : Vec Ideal S128x256 .f32) (wd1 : Vec Ideal S256x256 .f32)
    (b1 : Vec Ideal S1x256 .f32) (wd2 : Vec Ideal S256x256 .f32) (b2 : Vec Ideal S1x256 .f32) (wf : Vec Ideal S256x1 .f32)
    (s : S50000x128.Idx → EReal) (p : Fin 2000) (u : Fin 1) (i : S50000x1.Idx)
    (hs : ∀ e : Fin 128, sB (ix2 p e) = s (ix2 (i 0) e)) (hu : i 1 = u) :
    k1_pay1 (F := Ideal) sB wup wd1 b1 wd2 b2 wf (ix2 p u) = mlpArr s wup wd1 b1 wd2 b2 wf i := by
  rw [payload_apply]
  unfold Cert.Spec.mlpArr
  simp only [hs, hu]

/-- The printed index maps over the grid: windows 0 and 7 are on row block `t`, column block 0; the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of the network's array of the arrays as the region finds them. -/
theorem flushed_eq (c : Dev nD) (t : Fin cfg1.N) :
    (dat1 V c).flushed 7 t = ((cfg1.win 7).blk t).view.read (Elt Ideal)
      (mlpArr (V c main_v3) (V c main_arg4) (V c main_arg5) (V c main_v4) (V c main_arg7) (V c main_v5) (V c main_arg9)) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x256) hz, View.ld_unit_zero (S := S256x256) hz,
    View.ld_unit_zero (S := S1x256) hz, View.ld_unit_zero (S := S256x1) hz]
  obtain ⟨e00, e01, e10, e11, e20, e21, e30, e31, e40, e41, e50, e51, e60, e61, e70, e71⟩ := idx_facts t
  have h1 : (iblk1 V c 1 t : Vec Ideal S128x256 .f32) = V c main_arg4 := by
    funext y
    show V c main_arg4 (((cfg1.win 1).blk t).view.emb y) = V c main_arg4 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 256 + 1 * (y 1).val = (y 1).val; omega
  have h2 : (iblk1 V c 2 t : Vec Ideal S256x256 .f32) = V c main_arg5 := by
    funext y
    show V c main_arg5 (((cfg1.win 2).blk t).view.emb y) = V c main_arg5 y
    refine congrArg _ (funext fun a => Fin.ext ?_)
    match a with
    | ⟨0, _⟩ => show win1_2.index t (0 : Fin 2) * 256 + 1 * (y 0).val = (y 0).val; omega
    | ⟨1, _⟩ => show win1_2.index t (1 : Fin 2) * 256 + 1 * (y 1).val = (y 1).val; omega
  have h3 : (iblk1 V c 3 t : Vec Ideal S1x256 .f32) = V c main_v4 := by
    funext y
    show V c main_v4 (((cfg1.win 3).blk t).view.emb y) = V c main_v4 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 256 + 1 * (y 1).val = (y 1).val; omega
  have h4 : (iblk1 V c 4 t : Vec Ideal S256x256 .f32) = V c main_arg7 := by
    funext y
    show V c main_arg7 (((cfg1.win 4).blk t).view.emb y) = V c main_arg7 y
    refine congrArg _ (funext fun a => Fin.ext ?_)
    match a with
    | ⟨0, _⟩ => show win1_4.index t (0 : Fin 2) * 256 + 1 * (y 0).val = (y 0).val; omega
    | ⟨1, _⟩ => show win1_4.index t (1 : Fin 2) * 256 + 1 * (y 1).val = (y 1).val; omega
  have h5 : (iblk1 V c 5 t : Vec Ideal S1x256 .f32) = V c main_v5 := by
    funext y
    show V c main_v5 (((cfg1.win 5).blk t).view.emb y) = V c main_v5 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 256 + 1 * (y 1).val = (y 1).val; omega
  have h6 : (iblk1 V c 6 t : Vec Ideal S256x1 .f32) = V c main_arg9 := by
    funext y
    show V c main_arg9 (((cfg1.win 6).blk t).view.emb y) = V c main_arg9 y
    refine congrArg _ (funext fun a => Fin.ext ?_)
    match a with
    | ⟨0, _⟩ => show win1_6.index t (0 : Fin 2) * 256 + 1 * (y 0).val = (y 0).val; omega
    | ⟨1, _⟩ => show win1_6.index t (1 : Fin 2) * 1 + 1 * (y 1).val = (y 1).val; omega
  funext j
  obtain ⟨p, u, rfl⟩ : ∃ (p : Fin 2000) (u : Fin 1), j = ix2 p u := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p u)
    = mlpArr (V c main_v3) (V c main_arg4) (V c main_arg5) (V c main_v4) (V c main_arg7) (V c main_v5) (V c main_arg9) (((cfg1.win 7).blk t).view.emb (ix2 p u))
  rw [h1, h2, h3, h4, h5, h6]
  refine point_eq _ _ _ _ _ _ _ _ p u _ (fun e => ?_) ?_
  · show V c main_v3 (((cfg1.win 0).blk t).view.emb (ix2 p e)) = V c main_v3 (ix2 ((((cfg1.win 7).blk t).view.emb (ix2 p u)) 0) e)
    refine congrArg _ (funext fun a => Fin.ext ?_)
    match a with
    | ⟨0, _⟩ => show win1_0.index t (0 : Fin 2) * 2000 + 1 * p.val = win1_7.index t (0 : Fin 2) * 2000 + 1 * p.val; omega
    | ⟨1, _⟩ => show win1_0.index t (1 : Fin 2) * 128 + 1 * e.val = e.val; omega
  · apply Fin.ext
    show win1_7.index t (1 : Fin 2) * 1 + 1 * u.val = u.val; omega

/-- An index of the result array is in point `t`'s block iff each coordinate is in the block's range on its axis. -/
theorem mem_blk (t : Fin cfg1.N) (i : S50000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v6).slice (win1_7.rect t)).set ↔ _
  rw [View.set_slice_whole, Rect.mem_set_unit]
  exact Iff.rfl

/-- Row `n` lies in the block of point `n / 2000`. -/
theorem cover (i : S50000x1.Idx) :
    ∃ t : Fin cfg1.N, (cfg1.win 7).flush t = true ∧ i ∈ ((cfg1.win 7).blk t).view.set := by
  have hi0 : (i 0).val < 50000 := (i 0).isLt
  have hi1 : (i 1).val < 1 := (i 1).isLt
  have hN : cfg1.N = 25 := N_1
  refine ⟨⟨(i 0).val / 2000, by rw [hN]; omega⟩, flush1_7 _, ?_⟩
  rw [mem_blk]
  obtain ⟨-, -, -, -, -, -, -, -, -, -, -, -, -, -, e70, e71⟩ := idx_facts ⟨(i 0).val / 2000, by rw [hN]; omega⟩
  intro a
  match a with
  | ⟨0, _⟩ =>
    show win1_7.index _ (0 : Fin 2) * 2000 ≤ (i 0).val ∧ (i 0).val < win1_7.index _ (0 : Fin 2) * 2000 + 2000
    rw [e70]; show (i 0).val / 2000 * 2000 ≤ (i 0).val ∧ (i 0).val < (i 0).val / 2000 * 2000 + 2000; omega
  | ⟨1, _⟩ =>
    show win1_7.index _ (1 : Fin 2) * 1 ≤ (i 1).val ∧ (i 1).val < win1_7.index _ (1 : Fin 2) * 1 + 1
    rw [e71]; omega

/-- The result array after the region: the network's array of the arrays as the region finds them. -/
theorem final (c : Dev nD) :
    (dat1 V c).arrAt 7 cfg1.N
      = mlpArr (V c main_v3) (V c main_arg4) (V c main_arg5) (V c main_v4) (V c main_arg7) (V c main_v5) (V c main_arg9) :=
  (dat1 V c).arrAt_eq_of_cover 7 _ (fun t _ => flushed_eq V c t) cover

end Cert.KernelIdeal.Mlp

end
-- ==== Proof.KernelValue.lean ====
/-
  What the kernel program returns, as one function of its arguments.

  The first kernel leaves the scaled messages `messages * (rbf · W_rbf)`; the host then adds each scaled row into the
  row of its receiving particle (a scatter-add into a zero [50000, 128] array, indexed by `idx_i`) and lays the two bias
  vectors out as [1, 256] rows; the second kernel applies the network to every summed row. The result buffer therefore
  ends at the network's array of the scattered scaled messages.
-/
import proofs.«150192_j944892805680_1_alg».proof.Proof.NamedRun
import proofs.«150192_j944892805680_1_alg».proof.Proof.ScaleRegion
import proofs.«150192_j944892805680_1_alg».proof.Proof.MlpRegion
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The scaled rows added into their receiving particles' rows, from a zero array. -/
def summedArr (msg : S800000x128.Idx → EReal) (rbf : S800000x16.Idx → EReal) (idx : S800000.Idx → BitVec 32)
    (w : S16x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 idx)
    (Cert.Spec.scaledArr msg rbf w)

/-- The kernel program's result: the network over the summed rows, the biases cast to rows. -/
def result (c : Dev nD) : S50000x1.Idx → EReal :=
  Cert.Spec.mlpArr
    (summedArr (m ((c.tc : Thread nD τ).loc main_arg0)) (m ((c.tc : Thread nD τ).loc main_arg1))
      (m ((c.tc : Thread nD τ).loc main_arg2)) (m ((c.tc : Thread nD τ).loc main_arg3)))
    (m ((c.tc : Thread nD τ).loc main_arg4)) (m ((c.tc : Thread nD τ).loc main_arg5))
    (shapeCast S1x256 (m ((c.tc : Thread nD τ).loc main_arg6)) shapeCasts_S256_S1x256)
    (m ((c.tc : Thread nD τ).loc main_arg7))
    (shapeCast S1x256 (m ((c.tc : Thread nD τ).loc main_arg8)) shapeCasts_S256_S1x256)
    (m ((c.tc : Thread nD τ).loc main_arg9))

/-- The second kernel finds the summed array where the host's scatter-add left it. -/
theorem entry_summed (c : Dev nD) : V2 m ρ c main_v3
    = summedArr (m ((c.tc : Thread nD τ).loc main_arg0)) (m ((c.tc : Thread nD τ).loc main_arg1))
        (m ((c.tc : Thread nD τ).loc main_arg2)) (m ((c.tc : Thread nD τ).loc main_arg3)) := by
  show StableHlo.after hostOps1 (W1 m ρ c) (Proc.devRef .tc main_v3) = _
  after_results
  rw [W1_of_ne m ρ c main_arg2 (by decide),
    show W1 m ρ c (Proc.devRef .tc main_v0) = _ from (W1_arr m ρ c 3).trans (Cert.KernelIdeal.Scale.final (V0 m ρ) c)]
  rfl

/-- A bias vector reaches the second kernel cast to a [1, 256] row. -/
theorem entry_b1 (c : Dev nD) : V2 m ρ c main_v4
    = shapeCast S1x256 (m ((c.tc : Thread nD τ).loc main_arg6)) shapeCasts_S256_S1x256 := by
  show StableHlo.after hostOps1 (W1 m ρ c) (Proc.devRef .tc main_v4) = _
  after_results
  rw [W1_of_ne m ρ c main_arg6 (by decide)]
  rfl

theorem entry_b2 (c : Dev nD) : V2 m ρ c main_v5
    = shapeCast S1x256 (m ((c.tc : Thread nD τ).loc main_arg8)) shapeCasts_S256_S1x256 := by
  show StableHlo.after hostOps1 (W1 m ρ c) (Proc.devRef .tc main_v5) = _
  after_results
  rw [W1_of_ne m ρ c main_arg8 (by decide)]
  rfl

/-- The weight arrays reach the second kernel as launched: neither the first kernel nor the host writes them. -/
theorem entry_wup (c : Dev nD) : V2 m ρ c main_arg4 = m ((c.tc : Thread nD τ).loc main_arg4) := by
  show StableHlo.after hostOps1 (W1 m ρ c) (Proc.devRef .tc main_arg4) = _
  after_results
  exact W1_of_ne m ρ c main_arg4 (by decide)
theorem entry_wd1 (c : Dev nD) : V2 m ρ c main_arg5 = m ((c.tc : Thread nD τ).loc main_arg5) := by
  show StableHlo.after hostOps1 (W1 m ρ c) (Proc.devRef .tc main_arg5) = _
  after_results
  exact W1_of_ne m ρ c main_arg5 (by decide)
theorem entry_wd2 (c : Dev nD) : V2 m ρ c main_arg7 = m ((c.tc : Thread nD τ).loc main_arg7) := by
  show StableHlo.after hostOps1 (W1 m ρ c) (Proc.devRef .tc main_arg7) = _
  after_results
  exact W1_of_ne m ρ c main_arg7 (by decide)
theorem entry_wf (c : Dev nD) : V2 m ρ c main_arg9 = m ((c.tc : Thread nD τ).loc main_arg9) := by
  show StableHlo.after hostOps1 (W1 m ρ c) (Proc.devRef .tc main_arg9) = _
  after_results
  exact W1_of_ne m ρ c main_arg9 (by decide)

/-- The result buffer after the last region holds `result`. -/
theorem named_eq (c : Dev nD) : W3 m ρ c (Proc.devRef .tc main_v6) = result m c := by
  rw [show W3 m ρ c (Proc.devRef .tc main_v6) = (dat1 (V2 m ρ) c).arrAt 7 cfg1.N from W3_arr m ρ c 7,
    Cert.KernelIdeal.Mlp.final (V2 m ρ) c, entry_summed, entry_b1, entry_b2, entry_wup, entry_wd1, entry_wd2, entry_wf]
  rfl

/-- The kernel program's run, read: the result buffer at `result`, the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (named_eq m ρ c), (h c).2⟩)
    (Cert.KernelIdeal.GenRun.run_named m ρ)

end Cert.KernelIdeal.Result

end
-- ==== Proof.LibRowForms.lean ====
/-
  A vector laid out as a row, two ways.

  An `[n]` vector becomes a `[1, n]` row either by a shape cast or by a broadcast along axis 1; the two rows are the
  same array: entry `(0, q)` of either is entry `q` of the vector.
-/
import Idealize.ShloMosaic.Lib.ValueIdx
import Idealize.ShloMosaic.Lib.Pipeline.Value
import Idealize.ShloMosaic.Lib.ValueLayout
import Idealize.ShloMosaic.Lib.StableHlo.Predicate

namespace Cert.LibRowForms

open Idealize.ShloMosaic Idealize.ShloMosaic.ValueIdx

/-- The cast of an `[n]` vector to a `[1, n]` row is its broadcast along axis 1. -/
theorem row_cast_eq_bcast {α : Type} {n : Nat} (v : (⟨1, ![n]⟩ : Shape).Idx → α)
    (h₁ : (⟨1, ![n]⟩ : Shape).ShapeCasts ⟨2, ![1, n]⟩)
    (h₂ : (⟨1, ![n]⟩ : Shape).BroadcastsInDim ⟨2, ![1, n]⟩ (![1] : Fin 1 → Fin (⟨2, ![1, n]⟩ : Shape).rank)) :
    shapeCast ⟨2, ![1, n]⟩ v h₁ = broadcastInDim ⟨2, ![1, n]⟩ ![1] h₂ v := by
  -- Entry by entry: an index of the row is (u, q) with u the unit coordinate. The cast reads the vector at q,
  -- whatever u is; the broadcast along axis 1 reads the vector at the row index's coordinate on axis 1, which is q
  -- (when n = 1 the vector's one axis is a unit axis and is read at 0, which is again q).
  funext i
  obtain ⟨u, q, rfl⟩ : ∃ (u : Fin 1) (q : Fin n), i = ix2 u q := ⟨i 0, i 1, eq_ix2 i⟩
  rw [shapeCast_a_1a_apply]
  refine (broadcastInDim_apply ![1] h₂ v (ix2 u q) (ix1 q) fun a => ?_).symm
  match a with
  | ⟨0, _⟩ =>
    show q.val = if n = 1 then 0 else q.val
    split
    · have := q.isLt; omega
    · rfl

end Cert.LibRowForms
-- ==== Proof.RefValue.lean ====
/-
  What the reference program returns, as the same function of its arguments.

  The reference forms `rbf · W_rbf` over all 800000 rows at once, scales the messages, adds the scaled rows into
  their particles' rows, and runs the network over all 50000 summed rows at once; jax spells `swish z` as
  `z · (1 / (1 + exp (-z)))`, which is `z · logistic z`, and lays each bias out as a [1, 256] row by a broadcast where
  the kernel program uses a cast: the same row. Entry by entry this is the network's array of the scattered scaled
  messages.
-/
import proofs.«150192_j944892805680_1_alg».proof.Proof.Gen.ReferenceIdeal.Run
import proofs.«150192_j944892805680_1_alg».proof.Proof.LibDot
import proofs.«150192_j944892805680_1_alg».proof.Proof.LibRowForms
import proofs.«150192_j944892805680_1_alg».proof.Proof.Spec
import Idealize.ShloMosaic.Lib.IdealHost
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem

/-- The messages times the whole product `rbf · W_rbf` is the scaled array. -/
theorem scaled_eq (msg : FVec Ideal S800000x128 .f32) (rbf : FVec Ideal S800000x16 .f32) (w : FVec Ideal S16x128 .f32) :
    mulf msg (Host.dotGeneral dot_S800000x16_S16x128_S800000x128_1_0_0_1_n_n none rbf w) = Cert.Spec.scaledArr msg rbf w := by
  funext i
  obtain ⟨r, q, rfl⟩ : ∃ (r : Fin 800000) (q : Fin 128), i = ix2 r q := ⟨i 0, i 1, eq_ix2 i⟩
  rw [mulf_apply, Cert.LibDot.dotGeneral_apply dot_S800000x16_S16x128_S800000x128_1_0_0_1_n_n rfl rfl rfl rfl rfl rfl]
  rfl

/-- jax's `z · (1 / (1 + exp (-z)))` at an entry is `swish` of the entry. -/
theorem silu_apply (A : FVec Ideal S50000x256 .f32) (i : S50000x256.Idx) :
    mulf A (Host.divf (broadcastInDim S50000x256 ![] bcast_S_S50000x256 (constant (F := Ideal) S_ .f32 0x3F800000#32))
      (addf (broadcastInDim S50000x256 ![] bcast_S_S50000x256 (constant (F := Ideal) S_ .f32 0x3F800000#32))
        (Host.exp (Host.negf A)))) i = Cert.Spec.swish (A i) := by
  rw [mulf_apply, hostDivf_apply, addf_apply, broadcastInDim_scalar_apply, constant_apply, Ideal.ofBits_one_f32]
  rfl

/-- A bias vector laid out as a row and broadcast over the 50000 rows reads, at `(n, c)`, the cast row at `c`. -/
theorem bias_apply (b : FVec Ideal S256 .f32) (h : S256.ShapeCasts S1x256) (n : Fin 50000) (c : Fin 256) :
    broadcastInDim S50000x256 ![0, 1] bcast_S1x256_S50000x256_0_1 (broadcastInDim S1x256 ![1] bcast_S256_S1x256_1 b) (ix2 n c)
      = shapeCast S1x256 b h (ix2 (0 : Fin 1) c) := by
  rw [← Cert.LibRowForms.row_cast_eq_bcast b h]
  refine broadcastInDim_apply _ _ _ (ix2 n c) (ix2 (0 : Fin 1) c) fun ax => ?_
  match ax with
  | ⟨0, _⟩ => rfl
  | ⟨1, _⟩ => rfl

/-- One hidden layer over all rows at once, as the reference spells it. -/
def hidden (X : FVec Ideal S50000x256 .f32) (w : FVec Ideal S256x256 .f32) (b : FVec Ideal S256 .f32) : FVec Ideal S50000x256 .f32 :=
  mulf (addf (Host.dotGeneral dot_S50000x256_S256x256_S50000x256_1_0_0_1_n_n none X w)
      (broadcastInDim S50000x256 ![0, 1] bcast_S1x256_S50000x256_0_1 (broadcastInDim S1x256 ![1] bcast_S256_S1x256_1 b)))
    (Host.divf (broadcastInDim S50000x256 ![] bcast_S_S50000x256 (constant (F := Ideal) S_ .f32 0x3F800000#32))
      (addf (broadcastInDim S50000x256 ![] bcast_S_S50000x256 (constant (F := Ideal) S_ .f32 0x3F800000#32))
        (Host.exp (Host.negf (addf (Host.dotGeneral dot_S50000x256_S256x256_S50000x256_1_0_0_1_n_n none X w)
          (broadcastInDim S50000x256 ![0, 1] bcast_S1x256_S50000x256_0_1 (broadcastInDim S1x256 ![1] bcast_S256_S1x256_1 b)))))))

/-- A hidden layer at `(n, c)` is `Cert.Spec.layer` of row `n`. -/
theorem hidden_apply (X : FVec Ideal S50000x256 .f32) (w : FVec Ideal S256x256 .f32) (b : FVec Ideal S256 .f32)
    (h : S256.ShapeCasts S1x256) (n : Fin 50000) (c : Fin 256) :
    hidden X w b (ix2 n c)
      = Cert.Spec.layer (fun a => X (ix2 n a)) (fun a c' => w (ix2 a c')) (fun c' => shapeCast S1x256 b h (ix2 (0 : Fin 1) c')) c := by
  unfold hidden Cert.Spec.layer
  rw [silu_apply, addf_apply, bias_apply b h,
    Cert.LibDot.dotGeneral_apply dot_S50000x256_S256x256_S50000x256_1_0_0_1_n_n rfl rfl rfl rfl rfl rfl]

/-- The network over all summed rows at once, as the reference spells it. -/
def network (s : FVec Ideal S50000x128 .f32) (wup : FVec Ideal S128x256 .f32) (wd1 : FVec Ideal S256x256 .f32)
    (b1 : FVec Ideal S256 .f32) (wd2 : FVec Ideal S256x256 .f32) (b2 : FVec Ideal S256 .f32) (wf : FVec Ideal S256x1 .f32) :
    FVec Ideal S50000x1 .f32 :=
  Host.dotGeneral dot_S50000x256_S256x1_S50000x1_1_0_0_1_n_n none
    (hidden (hidden (Host.dotGeneral dot_S50000x128_S128x256_S50000x256_1_0_0_1_n_n none s wup) wd1 b1) wd2 b2) wf

/-- It is the network's array, the biases cast to rows. -/
theorem network_eq (s : FVec Ideal S50000x128 .f32) (wup : FVec Ideal S128x256 .f32) (wd1 : FVec Ideal S256x256 .f32)
    (b1 : FVec Ideal S256 .f32) (wd2 : FVec Ideal S256x256 .f32) (b2 : FVec Ideal S256 .f32) (wf : FVec Ideal S256x1 .f32)
    (h : S256.ShapeCasts S1x256) :
    network s wup wd1 b1 wd2 b2 wf = Cert.Spec.mlpArr s wup wd1 (shapeCast S1x256 b1 h) wd2 (shapeCast S1x256 b2 h) wf := by
  funext i
  obtain ⟨n, u, rfl⟩ : ∃ (n : Fin 50000) (u : Fin 1), i = ix2 n u := ⟨i 0, i 1, eq_ix2 i⟩
  unfold network Cert.Spec.mlpArr Cert.Spec.mlpRow
  rw [Cert.LibDot.dotGeneral_apply dot_S50000x256_S256x1_S50000x1_1_0_0_1_n_n rfl rfl rfl rfl rfl rfl]
  refine Finset.sum_congr rfl fun c _ => ?_
  rw [hidden_apply _ _ _ h]
  refine congrArg (fun z => Cert.Spec.layer z _ _ c * wf (ix2 c u)) (funext fun b => ?_)
  rw [hidden_apply _ _ _ h]
  refine congrArg (fun z => Cert.Spec.layer z _ _ b) (funext fun a => ?_)
  exact Cert.LibDot.dotGeneral_apply dot_S50000x128_S128x256_S50000x256_1_0_0_1_n_n rfl rfl rfl rfl rfl rfl none s wup n a

/-- The per-particle sums, as the reference spells them. -/
def summed (msg : FVec Ideal S800000x128 .f32) (rbf : FVec Ideal S800000x16 .f32) (idx : S800000.Idx → BitVec 32)
    (w : FVec Ideal S16x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 idx)
    (Cert.Spec.scaledArr msg rbf w)

variable (m : (ℓ : Loc nD τ sig) → Buf (Elt Ideal) ℓ)

/-- The reference's result term is the network's array of the scattered scaled messages. -/
theorem result_eq (c : Dev nD) (h : S256.ShapeCasts S1x256) :
    Cert.ReferenceIdeal.Value.res_main_v16 (F := Ideal) m c
      = Cert.Spec.mlpArr
          (summed (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg4)) (m ((c.tc : Thread nD τ).loc main_arg5))
          (shapeCast S1x256 (m ((c.tc : Thread nD τ).loc main_arg6)) h)
          (m ((c.tc : Thread nD τ).loc main_arg7))
          (shapeCast S1x256 (m ((c.tc : Thread nD τ).loc main_arg8)) h)
          (m ((c.tc : Thread nD τ).loc main_arg9)) := by
  rw [← network_eq _ _ _ _ _ _ _ h]
  unfold summed
  rw [← scaled_eq]
  rfl

end Cert.ReferenceIdeal.RefValue

end
-- ==== Proof.lean ====
/-
  The certificate: a two-kernel message-passing readout against its jnp reference.

  Both programs compute, per receiving particle, a small network of the summed scaled edge messages:
  `scaled[r, q] = messages[r, q] · ∑ k, rbf[r, k] · W_rbf[k, q]`, `summed = segment_sum(scaled, idx_i)`, then
  `u = summed · W_up`, two layers `x ↦ swish (x · W + b)` and the projection onto one number. The kernel program does
  the scaling in blocks of 8000 edge rows and the network in blocks of 2000 particle rows, with the scatter-add on the
  host between them; the reference does each step on the whole arrays. Over the extended reals the changes of float
  format are the identity, a matrix product into a zero accumulator is the plain sum over the contracted coordinate in
  both spellings, `tpu.logistic` and jax's `1 / (1 + exp (-z))` are one function, and the scatter-add is the same host
  operation on both sides applied to equal operands: the two results are one function of the arguments, entry by entry,
  and no law that needs finiteness is used.

  The frames of the two kernel programs are the generated ones; the reference's is its generated run with the result
  dropped; the ideal pass rewrote nothing, so `preserves` is trivial.
-/
import proofs.«150192_j944892805680_1_alg».proof.Proof.Gen.Kernel
import proofs.«150192_j944892805680_1_alg».proof.Proof.Gen.Kernel.Skeleton
import proofs.«150192_j944892805680_1_alg».proof.Proof.Gen.Kernel.Launch
import proofs.«150192_j944892805680_1_alg».proof.Proof.Gen.Kernel.Points
import proofs.«150192_j944892805680_1_alg».proof.Proof.Gen.Kernel.Frame
import proofs.«150192_j944892805680_1_alg».proof.Proof.Gen.KernelIdeal
import proofs.«150192_j944892805680_1_alg».proof.Proof.Gen.KernelIdeal.Skeleton
import proofs.«150192_j944892805680_1_alg».proof.Proof.Gen.KernelIdeal.Launch
import proofs.«150192_j944892805680_1_alg».proof.Proof.Gen.KernelIdeal.Points
import proofs.«150192_j944892805680_1_alg».proof.Proof.Gen.KernelIdeal.Frame
import proofs.«150192_j944892805680_1_alg».proof.Proof.Gen.ReferenceIdeal
import proofs.«150192_j944892805680_1_alg».proof.Proof.Gen.Pre_finite_inputs
import proofs.«150192_j944892805680_1_alg».proof.Proof.Gen.ReferenceIdeal.Run
import proofs.«150192_j944892805680_1_alg».proof.Proof.KernelValue
import proofs.«150192_j944892805680_1_alg».proof.Proof.RefValue
import proofs.«150192_j944892805680_1_alg».proof.Defs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result buffer at the network's array of the scattered scaled messages: the kernel program's
    by its two regions' blocks and the host operations between them, the reference's by its whole-array operations read
    entry by entry; the memories agree on the arguments, so the two arrays are one. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq m' c Cert.KernelIdeal.Gen.shapeCasts_S256_S1x256]
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
